-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S32768x1024, .f32⟩
  | .hbm, ⟨5, _⟩ => ⟨S1x1024, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.AffineSpec.lean ====
/-
  The function both programs compute, stated once over the extended reals and over literal shapes.

  With `x` the [32768, 1024] data, `w` the [1024, 1024] weights and `b` the [1024] bias, entry (r, c) of the
  result is the inner product of row `r` of the data with row `c` of the weights (the weights enter TRANSPOSED:
  the contraction runs over the second axis of both), plus entry `c` of the bias:

      affine x w b (r, c) = (∑ k, x (r, k) · w (c, k)) + b c.

  No program is imported here: the two sides each show, in their own modules, that their result is this function
  of the argument arrays.
-/
import Idealize.ShloMosaic.PureOps.Ideal
import Idealize.ShloMosaic.Lib.ValueIdx

noncomputable section

open scoped BigOperators

namespace Cert.Affine

open Idealize.ShloMosaic Idealize.ShloMosaic.ValueIdx

/-- Entry (r, c) of `x · wᵀ + b`: the sum over the shared axis `k` of `x (r, k) · w (c, k)`, plus `b c`. -/
def affine (x : (⟨2, ![32768, 1024]⟩ : Shape).Idx → EReal) (w : (⟨2, ![1024, 1024]⟩ : Shape).Idx → EReal)
    (b : (⟨1, ![1024]⟩ : Shape).Idx → EReal) : (⟨2, ![32768, 1024]⟩ : Shape).Idx → EReal :=
  fun i => (∑ k : Fin 1024, x (ix2 (i 0) k) * w (ix2 (i 1) k)) + b (ix1 (i 1))

/-- The function at explicit coordinates. -/
theorem affine_apply (x : (⟨2, ![32768, 1024]⟩ : Shape).Idx → EReal) (w : (⟨2, ![1024, 1024]⟩ : Shape).Idx → EReal)
    (b : (⟨1, ![1024]⟩ : Shape).Idx → EReal) (r : Fin 32768) (c : Fin 1024) :
    affine x w b (ix2 r c) = (∑ k : Fin 1024, x (ix2 r k) * w (ix2 c k)) + b (ix1 c) := rfl

end Cert.Affine

end
-- ==== Proof.RefAffine.lean ====
/-
  The reference's result is the affine map of its arguments.

  The reference transposes the weights, contracts the data's second axis against the transposed weights' first axis,
  and adds the bias broadcast along the rows. Read at entry (r, c): the contraction is the sum over `k` of
  data (r, k) times transposed-weights (k, c), and the transposed weights at (k, c) are the weights at (c, k); the
  bias broadcast twice reads its entry `c`. That is `Cert.Affine.affine` of the three arguments, term for term.
-/
import proofs.«123966_j49074296324665_1_alg».proof.Proof.Gen.ReferenceIdeal.Read
import proofs.«123966_j49074296324665_1_alg».proof.Proof.AffineSpec

noncomputable section

open scoped BigOperators

namespace Cert.ReferenceIdeal.RefAffine

open Cert.ReferenceIdeal Cert.ReferenceIdeal.Gen Cert.ReferenceIdeal.Read
open Idealize.ShloMosaic Idealize.ShloMosaic.TcCoe Idealize.ShloMosaic.ValueIdx

/-- The last stage of the reference, as a function of the three arguments, is `x · wᵀ + b` entry by entry. -/
theorem result_eq (x0 : (⟨S32768x1024, .f32⟩ : BufTy).Contents (Elt Ideal)) (x1 : (⟨S1024x1024, .f32⟩ : BufTy).Contents (Elt Ideal))
    (x2 : (⟨S1024, .f32⟩ : BufTy).Contents (Elt Ideal)) :
    val_main_v4 (F := Ideal) x0 x1 x2 = Cert.Affine.affine x0 x1 x2 := by
  funext i
  -- the left factor of the contraction sits at (r, k), the right one, through the transpose, at (c, k)
  have el : ∀ k : Fin 1024, lidx_main_v1 i k = ix2 (i 0) k := fun k => funext fun a => Fin.ext (by
    match a with | ⟨0, _⟩ => rfl | ⟨1, _⟩ => rfl)
  have er : ∀ k : Fin 1024, idx_main_v0 (ridx_main_v1 i k) = ix2 (i 1) k := fun k => funext fun a => Fin.ext (by
    match a with | ⟨0, _⟩ => rfl | ⟨1, _⟩ => rfl)
  -- the bias, broadcast to a row and then down the rows, is read at the column
  have eb : idx_main_v2 (idx_main_v3 i) = ix1 (i 1) := funext fun a => Fin.ext (by
    match a with | ⟨0, _⟩ => rfl)
  rw [val_main_v4_apply, val_main_v1_apply, val_main_v3_apply, val_main_v2_apply]
  simp only [val_main_v0_apply, el, er, eb]
  rfl

end Cert.ReferenceIdeal.RefAffine

end
-- ==== Proof.KernelPayload.lean ====
/-
  The kernel body's stored value, read at one entry.

  At a grid point the body holds a [1024, 1024] block `x` of the data, the whole weights `w` and the bias as a
  [1, 1024] row `b`. It stores `x · wᵀ + b`: the matrix product contracts `x`'s second axis with the first axis of
  the transposed weights and accumulates into zero, and the bias row is broadcast down the rows. At the extended
  reals a change of float format is the identity, so entry (p, q) of the stored block is

      (∑ k, x (p, k) · w (q, k)) + b (0, q).
-/
import proofs.«123966_j49074296324665_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.TcCoe Idealize.ShloMosaic.ValueIdx

/-! ## The product's operand indices, axis by axis -/

/-- The left operand's row is the output's row. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contraction position. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contraction position. -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The three non-pointwise operations at an entry -/

/-- A matrix product into the zero accumulator, at entry (p, q): the sum over `k` of left (p, k) times right (k, q). -/
theorem product_at (l r : FVec Ideal S1024x1024 .bf16) (p q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The weights block, recast to its own shape and transposed, reads at (k, q) the block at (q, k). -/
theorem weights_at (w : Vec Ideal S1024x1024 .bf16) (k q : Fin 1024) :
    transpose S1024x1024 [1, 0] (shapeCast S1024x1024 w shapeCasts_S1024x1024_S1024x1024) transposes_S1024x1024_p1_0_S1024x1024 (ix2 k q)
      = w (ix2 q k) := by
  rw [shapeCast_self]
  exact transpose_ix2_apply w transposes_S1024x1024_p1_0_S1024x1024 k q

/-- The bias row, recast to its own shape and broadcast down the rows, reads at (p, q) the row's entry `q`. -/
theorem bias_at (b : Vec Ideal S1x1024 .f32) (p q : Fin 1024) :
    broadcastTo S1024x1024 (shapeCast S1x1024 b shapeCasts_S1x1024_S1x1024) broadcasts_S1x1024_S1024x1024 (ix2 p q)
      = b (ix2 (0 : Fin 1) q) := by
  rw [shapeCast_self]
  exact broadcastTo_apply b broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-! ## The stored value at an entry -/

/-- Entry (p, q) of what the body stores: row `p` of the data block against row `q` of the weights, plus the bias at `q`. -/
theorem stored_at (x : Vec Ideal S1024x1024 .f32) (w : Vec Ideal S1024x1024 .bf16) (b : Vec Ideal S1x1024 .f32) (p q : Fin 1024) :
    k0_pay1 (F := Ideal) x w b (ix2 p q) = (∑ k : Fin 1024, x (ix2 p k) * w (ix2 q k)) + b (ix2 (0 : Fin 1) q) := by
  unfold k0_pay1
  dsimp only
  rw [addf_apply, product_at, bias_at]
  refine congrArg (· + b (ix2 (0 : Fin 1) q)) (Finset.sum_congr rfl fun k _ => ?_)
  exact congrArg (x (ix2 p k) * ·) (weights_at w k q)

end Cert.KernelIdeal.Body

end
-- ==== Proof.KernelAffine.lean ====
/-
  The kernel's result array is the affine map of its arguments.

  The grid has 32 points. Point `t` stages rows 1024·t … 1024·t + 1023 of the data, the whole weights and the
  whole bias row, and writes back rows 1024·t … 1024·t + 1023 of the result. Before the region the host changes the
  weights' float format (the identity at the extended reals) and reshapes the bias [1024] to a row [1, 1024] (entry
  (0, q) of the row is entry `q` of the bias). So entry (p, q) of the block point `t` writes back is

      (∑ k, data (1024·t + p, k) · weights (q, k)) + bias q,

  which is entry (1024·t + p, q) of `Cert.Affine.affine` of the three arguments: each point writes back its block of
  that one function, the 32 blocks cover the array, and so the array ends as that function.
-/
import proofs.«123966_j49074296324665_1_alg».proof.Proof.Gen.KernelIdeal.Value
import proofs.«123966_j49074296324665_1_alg».proof.Proof.KernelPayload
import proofs.«123966_j49074296324665_1_alg».proof.Proof.AffineSpec
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## The two arrays the host prepares -/

/-- The weights as the region finds them are the weights argument: the host only changes their float format. -/
theorem weights_found (c : Dev nD) :
    (V m c main_v0 : S1024x1024.Idx → EReal) = (m ((c : Thread nD τ).loc main_arg1) : S1024x1024.Idx → EReal) := by
  have e : (V m c main_v0 : S1024x1024.Idx → EReal)
      = (truncf .bf16 (m ((c : Thread nD τ).loc main_arg1) : FVec Ideal S1024x1024 .f32) bitsLt_bf16_f32 : FVec Ideal S1024x1024 .bf16) := by
    dsimp only [V, hostOps0]; after_results
  rw [e]; rfl

/-- The bias row as the region finds it: entry (0, q) is entry `q` of the bias argument. -/
theorem bias_found (c : Dev nD) (q : Fin 1024) :
    (V m c main_v1 : S1x1024.Idx → EReal) (ix2 (0 : Fin 1) q) = (m ((c : Thread nD τ).loc main_arg2) : S1024.Idx → EReal) (ix1 q) := by
  have e : (V m c main_v1 : S1x1024.Idx → EReal) = shapeCast S1x1024 (m ((c : Thread nD τ).loc main_arg2)) shapeCasts_S1024_S1x1024 := by
    dsimp only [V, hostOps0]; after_results; rfl
  rw [e]
  refine shapeCast_apply _ _ _ _ ?_
  show (S1024.rowMajor (ix1 q)).val = (S1x1024.rowMajor (ix2 (0 : Fin 1) q)).val
  rw [Shape.rowMajor_val_one, Shape.rowMajor_val_two]
  show q.val = 0 * 1024 + q.val
  omega

/-! ## What one grid point writes back -/

/-- The stored block against the arrays: if the data block's row `p` is row `r` of the data array `X`, the weights
    block is the array `Wt` and the bias row's entry (0, q) is entry `q` of `B`, then entry (p, q) of the stored block
    is entry (r, q) of the affine map of `X`, `Wt`, `B`. -/
theorem stored_eq_affine (X : S32768x1024.Idx → EReal) (Wt : S1024x1024.Idx → EReal) (B : S1024.Idx → EReal)
    (x : Vec Ideal S1024x1024 .f32) (w : Vec Ideal S1024x1024 .bf16) (b : Vec Ideal S1x1024 .f32)
    (p q : Fin 1024) (r : Fin 32768)
    (hx : ∀ k : Fin 1024, x (ix2 p k) = X (ix2 r k))
    (hw : ∀ k : Fin 1024, w (ix2 q k) = Wt (ix2 q k))
    (hb : b (ix2 (0 : Fin 1) q) = B (ix1 q)) :
    k0_pay1 (F := Ideal) x w b (ix2 p q) = Cert.Affine.affine X Wt B (ix2 r q) := by
  rw [stored_at, Cert.Affine.affine_apply, hb]
  exact congrArg (· + B (ix1 q)) (Finset.sum_congr rfl fun k _ => by rw [hx k, hw k])

/-- The same for a whole stored block whose data rows are rows `r0 … r0 + 1023` of `X`: entry `j` of the stored block
    is entry (r0 + j₀, j₁) of the affine map. -/
theorem stored_block (X : S32768x1024.Idx → EReal) (Wt : S1024x1024.Idx → EReal) (B : S1024.Idx → EReal)
    (x : Vec Ideal S1024x1024 .f32) (w : Vec Ideal S1024x1024 .bf16) (b : Vec Ideal S1x1024 .f32)
    (r0 : Nat) (hr0 : r0 + 1024 ≤ 32768)
    (hx : ∀ p k : Fin 1024, x (ix2 p k) = X (ix2 (⟨r0 + p.val, by have := p.isLt; omega⟩ : Fin 32768) k))
    (hw : ∀ q k : Fin 1024, w (ix2 q k) = Wt (ix2 q k))
    (hb : ∀ q : Fin 1024, b (ix2 (0 : Fin 1) q) = B (ix1 q)) (j : S1024x1024.Idx) :
    k0_pay1 (F := Ideal) x w b j
      = Cert.Affine.affine X Wt B (ix2 (⟨r0 + (j 0).val, by have : (j 0).val < 1024 := (j 0).isLt; omega⟩ : Fin 32768) (j 1)) := by
  obtain ⟨p, q, rfl⟩ : ∃ (p q : Fin 1024), j = ix2 p q := ⟨j 0, j 1, eq_ix2 j⟩
  exact stored_eq_affine X Wt B x w b p q _ (hx p) (hw q) (hb q)

/-- The printed index maps over the grid: the data and the result windows sit at block row `t`, block column 0;
    the weights and the bias windows at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 32 points. -/
theorem points : cfg0.N = 32 := by decide

/-- Row `p` of the data block at point `t` is row 1024·t + p of the data argument. -/
theorem data_block_at (c : Dev nD) (t : Fin cfg0.N) (p k : Fin 1024) (r : Fin 32768) (hr : r.val = t.val * 1024 + p.val) :
    (iblk m c 0 t : Vec Ideal S1024x1024 .f32) (ix2 p k)
      = (m ((c : Thread nD τ).loc main_arg0) : S32768x1024.Idx → EReal) (ix2 r k) := by
  obtain ⟨e00, e01, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = r.val; rw [e00, hr]; omega
  | ⟨1, _⟩ => show win0_0.index t (1 : Fin 2) * 1024 + 1 * k.val = k.val; rw [e01]; omega

/-- The weights block at any point is the whole weights argument. -/
theorem weights_block_at (c : Dev nD) (t : Fin cfg0.N) (q k : Fin 1024) :
    (iblk m c 1 t : Vec Ideal S1024x1024 .bf16) (ix2 q k)
      = (m ((c : Thread nD τ).loc main_arg1) : S1024x1024.Idx → EReal) (ix2 q k) := by
  obtain ⟨-, -, e10, e11, -⟩ := index_maps t
  show V m c main_v0 (((cfg0.win 1).blk t).view.emb (ix2 q k)) = _
  rw [weights_found]
  refine congrArg _ (funext fun a => Fin.ext ?_)
  match a with
  | ⟨0, _⟩ => show win0_1.index t (0 : Fin 2) * 1024 + 1 * q.val = q.val; rw [e10]; omega
  | ⟨1, _⟩ => show win0_1.index t (1 : Fin 2) * 1024 + 1 * k.val = k.val; rw [e11]; omega

/-- The bias block at any point is the whole bias row: its entry (0, q) is entry `q` of the bias argument. -/
theorem bias_block_at (c : Dev nD) (t : Fin cfg0.N) (q : Fin 1024) :
    (iblk m c 2 t : Vec Ideal S1x1024 .f32) (ix2 (0 : Fin 1) q)
      = (m ((c : Thread nD τ).loc main_arg2) : S1024.Idx → EReal) (ix1 q) := by
  obtain ⟨-, -, -, -, e20, e21, -⟩ := index_maps t
  show V m c main_v1 (((cfg0.win 2).blk t).view.emb (ix2 (0 : Fin 1) q)) = _
  have eb : ((cfg0.win 2).blk t).view.emb (ix2 (0 : Fin 1) q) = ix2 (0 : Fin 1) q := funext fun a => Fin.ext (by
    match a with
    | ⟨0, _⟩ => show win0_2.index t (0 : Fin 2) * 1 + 1 * 0 = 0; rw [e20]
    | ⟨1, _⟩ => show win0_2.index t (1 : Fin 2) * 1024 + 1 * q.val = q.val; rw [e21]; omega)
  rw [eb]
  exact bias_found m c q

/-- WHAT POINT `t` WRITES BACK is block `t` of the affine map of the three arguments. -/
theorem flushed_eq (c : Dev nD) (t : Fin cfg0.N) :
    (dats m 0 c).flushed 3 t = ((cfg0.win 3).blk t).view.read (Elt Ideal)
      (Cert.Affine.affine (m ((c : Thread nD τ).loc main_arg0)) (m ((c : Thread nD τ).loc main_arg1)) (m ((c : Thread nD τ).loc main_arg2))) := by
  rw [flushed3]
  unfold out0_3
  rw [View.canon_unit_zero offsets_zero]
  simp only [View.ld_unit_zero (S := S1024x1024) offsets_zero, View.ld_unit_zero (S := S1x1024) offsets_zero]
  obtain ⟨-, -, -, -, -, -, e30, e31⟩ := index_maps t
  have ht : t.val < 32 := lt_of_lt_of_eq t.isLt points
  funext j
  have hj0 : (j 0).val < 1024 := (j 0).isLt
  have hj1 : (j 1).val < 1024 := (j 1).isLt
  -- the index of the array that entry `j` of the written block lands on: row 1024·t + j₀, column j₁
  have ei : ((cfg0.win 3).blk t).view.emb j
      = ix2 (⟨t.val * 1024 + (j 0).val, by omega⟩ : Fin 32768) (⟨(j 1).val, hj1⟩ : Fin 1024) := by
    funext a; apply Fin.ext
    match a with
    | ⟨0, _⟩ => show win0_3.index t (0 : Fin 2) * 1024 + 1 * (j 0).val = t.val * 1024 + (j 0).val; rw [e30]; omega
    | ⟨1, _⟩ => show win0_3.index t (1 : Fin 2) * 1024 + 1 * (j 1).val = (j 1).val; rw [e31]; omega
  show k0_pay1 (F := Ideal) (iblk m c 0 t) (iblk m c 1 t) (iblk m c 2 t) j
    = Cert.Affine.affine _ _ _ (((cfg0.win 3).blk t).view.emb j)
  rw [ei]
  exact stored_block (m ((c : Thread nD τ).loc main_arg0)) (m ((c : Thread nD τ).loc main_arg1)) (m ((c : Thread nD τ).loc main_arg2))
    (iblk m c 0 t) (iblk m c 1 t) (iblk m c 2 t) (t.val * 1024) (by omega)
    (fun p k => data_block_at m c t p k _ rfl) (fun q k => weights_block_at m c t q k) (fun q => bias_block_at m c t q) j

/-! ## From the blocks to the array -/

/-- An index of the result array is in point `t`'s block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every index of the result array is written back by some point: row `r` by point `r / 1024`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : (i 0).val / 1024 < cfg0.N := by rw [points]; omega
  obtain ⟨-, -, -, -, -, -, e30, e31⟩ := index_maps ⟨(i 0).val / 1024, hN⟩
  refine ⟨⟨(i 0).val / 1024, hN⟩, flush0_3 _, ?_⟩
  rw [mem_block]
  intro a
  match a with
  | ⟨0, _⟩ =>
    show win0_3.index ⟨(i 0).val / 1024, hN⟩ (0 : Fin 2) * 1024 ≤ (i 0).val ∧ (i 0).val < win0_3.index ⟨(i 0).val / 1024, hN⟩ (0 : Fin 2) * 1024 + 1024
    rw [e30]; show (i 0).val / 1024 * 1024 ≤ (i 0).val ∧ (i 0).val < (i 0).val / 1024 * 1024 + 1024; omega
  | ⟨1, _⟩ =>
    show win0_3.index ⟨(i 0).val / 1024, hN⟩ (1 : Fin 2) * 1024 ≤ (i 1).val ∧ (i 1).val < win0_3.index ⟨(i 0).val / 1024, hN⟩ (1 : Fin 2) * 1024 + 1024
    rw [e31]; omega

/-- THE RESULT ARRAY after the run is the affine map of the three arguments. -/
theorem final (c : Dev nD) : (dats m 0 c).arrAt 3 cfg0.N
    = Cert.Affine.affine (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result array at the affine map of the arguments, the arguments unchanged. -/
theorem run : θ_run defs (onTc (τ := τ) (main (F := Ideal))) ⟨m, fun _ => 0, ρ⟩ fun r => ∀ c : Dev nD,
      r.2.mem ((c : Thread nD τ).loc main_v2)
        = Cert.Affine.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  Both programs compute the affine map `x · wᵀ + b` of a [32768, 1024] data array, [1024, 1024] weights and a
  [1024] bias: entry (r, c) of the result is `(∑ k, x (r, k) · w (c, k)) + b c` (`Cert.Affine.affine`).

  The kernel runs a grid of 32 points over blocks of 1024 rows; each point multiplies its block of the data with the
  transposed weights (after a change of float format, which is the identity on the extended reals), adds the bias row,
  and writes its 1024 rows of the result back; the 32 blocks cover the result (`Cert.KernelIdeal.Whole.run`). The
  reference transposes the weights, contracts, and adds the broadcast bias (`Cert.ReferenceIdeal.RefAffine.result_eq`).
  The two sums run over the same index in the same order with the same factors, so no law of the extended reals
  beyond reading each operation at an index is needed, and the precondition is never opened.

  The three frames are the generated ones (the reference's is its generated run with the result dropped); the
  idealization rewrote no operation, so `preserves` is `True`.
-/
import proofs.«123966_j49074296324665_1_alg».proof.Defs
import proofs.«123966_j49074296324665_1_alg».proof.Proof.Gen.Kernel
import proofs.«123966_j49074296324665_1_alg».proof.Proof.Gen.Kernel.Skeleton
import proofs.«123966_j49074296324665_1_alg».proof.Proof.Gen.Kernel.Launch
import proofs.«123966_j49074296324665_1_alg».proof.Proof.Gen.Kernel.Points
import proofs.«123966_j49074296324665_1_alg».proof.Proof.Gen.Kernel.Frame
import proofs.«123966_j49074296324665_1_alg».proof.Proof.Gen.KernelIdeal
import proofs.«123966_j49074296324665_1_alg».proof.Proof.Gen.KernelIdeal.Skeleton
import proofs.«123966_j49074296324665_1_alg».proof.Proof.Gen.KernelIdeal.Launch
import proofs.«123966_j49074296324665_1_alg».proof.Proof.Gen.KernelIdeal.Points
import proofs.«123966_j49074296324665_1_alg».proof.Proof.Gen.KernelIdeal.Frame
import proofs.«123966_j49074296324665_1_alg».proof.Proof.Gen.ReferenceIdeal
import proofs.«123966_j49074296324665_1_alg».proof.Proof.Gen.Pre_finite_inputs
import proofs.«123966_j49074296324665_1_alg».proof.Proof.Gen.KernelIdeal.Value
import proofs.«123966_j49074296324665_1_alg».proof.Proof.Gen.ReferenceIdeal.Run
import proofs.«123966_j49074296324665_1_alg».proof.Proof.Gen.ReferenceIdeal.Read
import proofs.«123966_j49074296324665_1_alg».proof.Proof.AffineSpec
import proofs.«123966_j49074296324665_1_alg».proof.Proof.RefAffine
import proofs.«123966_j49074296324665_1_alg».proof.Proof.KernelPayload
import proofs.«123966_j49074296324665_1_alg».proof.Proof.KernelAffine
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments both programs end with the result at `x · wᵀ + b` of those
    arguments: the kernel block by block, the reference in one contraction. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefAffine.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
